-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S1x4096x4096 : Shape := ⟨3, ![1, 4096, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_

variable [Facts]

def fn_part1 {F : FTy → Type} [FloatOps F] (main_v13 : IVec S_ 1) (main_v16 : IVec S1x4096x4096 1) : IVec S_ 1 :=
  let main_c_5 : IVec S_ 1 := constantI S_ 1 1#1
  let main_v17 : IVec S_ 1 := (fun x v => Host.reduce IntOp.andi x v reducesTo_S1x4096x4096_S_d0_1_2 h_S_) main_v16 main_c_5
  let main_v18 : IVec S_ 1 := andi main_v13 main_v17
  main_v18

def fn {F : FTy → Type} [FloatOps F] (main_arg0 : FVec F S8x4096x64 .f32) (main_arg1 : FVec F S8x4096x64 .f32) (main_arg2 : FVec F S8x4096x64 .f32) (main_arg3 : FVec F S1x4096x4096 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S1x4096x4096 .f32 := Host.absf main_arg3
  let main_cst_4 : FVec F S_ .f32 := constant S_ .f32 0x7F800000#32
  let main_v15 : FVec F S1x4096x4096 .f32 := broadcastInDim S1x4096x4096 ![] bcast_S_S1x4096x4096 main_cst_4
  let main_v16 : IVec S1x4096x4096 1 := cmpf .olt main_v14 main_v15
  fn_part1 (F := F) main_v13 main_v16
-- ==== Kernel.lean ====
abbrev S8x4096x64 : Shape := ⟨3, ![8, 4096, 64]⟩
abbrev S1x4096x4096 : Shape := ⟨3, ![1, 4096, 4096]⟩
abbrev S8x4096x4096 : Shape := ⟨3, ![8, 4096, 4096]⟩
abbrev S1x128x64 : Shape := ⟨3, ![1, 128, 64]⟩
abbrev S1x128x4096 : Shape := ⟨3, ![1, 128, 4096]⟩
abbrev S128x64 : Shape := ⟨2, ![128, 64]⟩
abbrev S1x4096x64 : Shape := ⟨3, ![1, 4096, 64]⟩
abbrev S4096x64 : Shape := ⟨2, ![4096, 64]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S1x4096x4096, .f32⟩
  | .hbm, ⟨4, _⟩ => ⟨S8x4096x64, .bf16⟩
  | .hbm, ⟨5, _⟩ => ⟨S8x4096x64, .bf16⟩
  | .hbm, ⟨6, _⟩ => ⟨S8x4096x64, .f32⟩
  | .hbm, ⟨7, _⟩ => ⟨S8x4096x4096, .f32⟩
  | .local _ .vmem, ⟨0, _⟩ => ⟨S1x128x64, .f32⟩
  | .local _ .vmem, ⟨1, _⟩ => ⟨S1x128x64, .f32⟩
  | .local _ .vmem, ⟨2, _⟩ => ⟨S8x4096x64, .bf16⟩
  | .local _ .vmem, ⟨3, _⟩ => ⟨S8x4096x64, .bf16⟩
  | .local _ .vmem, ⟨4, _⟩ => ⟨S1x128x4096, .f32⟩
  | .local _ .vmem, ⟨5, _⟩ => ⟨S1x128x4096, .f32⟩
  | .local _ .vmem, ⟨6, _⟩ => ⟨S1x128x64, .f32⟩
  | .local _ .vmem, ⟨7, _⟩ => ⟨S1x128x64, .f32⟩
  | .local _ .vmem, ⟨8, _⟩ => ⟨S1x128x4096, .f32⟩
  | .local _ .vmem, ⟨9, _⟩ => ⟨S1x128x4096, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_off1 (i : grid0.Coords) : Fin 3 → Nat :=
  let arg1 : BitVec 32 := BitVec.ofNat 32 (i 1).val
  let v3 : Index := Scalar.indexCast arg1
  let c0_2 : Index := 0#32
  let c0_3 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  h_S1x4096x64 : 0 < S1x4096x64.numel
  shapeCasts_S1x4096x64_S4096x64 : S1x4096x64.ShapeCasts S4096x64
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  reduces_S128x4096_S128 : S128x4096.Reduces [1] S128
  shapeCasts_S128_S128x1 : S128.ShapeCasts S128x1
  broadcasts_S128x1_S128x4096 : S128x1.Broadcasts S128x4096
  shapeCasts_S128x4096_S1x128x4096 : S128x4096.ShapeCasts S1x128x4096
  shapeCasts_S128x64_S1x128x64 : S128x64.ShapeCasts S1x128x64
  dot_S128x64_S4096x64_S128x4096_1_1_0_0_n_n_wf : DotDims.WF S128x64 S4096x64 S128x4096 [1] [1] [0] [0] [] []
  dot_S128x4096_S4096x64_S128x64_1_0_0_1_n_n_wf : DotDims.WF S128x4096 S4096x64 S128x64 [1] [0] [0] [1] [] []
  hrank0 : 0 < grid0.rank
  k0_off1_inb : ∀ i : grid0.Coords, ∀ a, (k0_off1 i) a + S1x4096x64.size a ≤ S8x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S8x4096x64.size a
  hwx0_0 : ∀ i : grid0.Coords, EltTy.bits .f32 = 32 ∨ (Rect.block (s := S8x4096x64) S1x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096x64.size a ≤ S8x4096x64.size a
  hwx0_1 : ∀ i : grid0.Coords, EltTy.bits .bf16 = 32 ∨ (Rect.block (s := S8x4096x64) S8x4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096x64.size a ≤ S8x4096x64.size a
  hwx0_2 : ∀ i : grid0.Coords, EltTy.bits .bf16 = 32 ∨ (Rect.block (s := S8x4096x64) S8x4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x4096.size a ≤ S1x4096x4096.size a
  hwx0_3 : ∀ i : grid0.Coords, EltTy.bits .f32 = 32 ∨ (Rect.block (s := S1x4096x4096) S1x128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x64.size a ≤ S8x4096x64.size a
  hwx0_4 : ∀ i : grid0.Coords, EltTy.bits .f32 = 32 ∨ (Rect.block (s := S8x4096x64) S1x128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x4096.size a ≤ S8x4096x4096.size a
  hwx0_5 : ∀ i : grid0.Coords, EltTy.bits .f32 = 32 ∨ (Rect.block (s := S8x4096x4096) S1x128x4096.size (cc0_transform_5 i) (hinb0_5 i)).WholeWords (EltTy.packing .f32)

variable [Facts₀]

def dot_S128x64_S4096x64_S128x4096_1_1_0_0_n_n : DotDims S128x64 S4096x64 S128x4096 where
  lhsContracting := [1]
  rhsContracting := [1]
  lhsNonContracting := [0]
  rhsNonContracting := [0]
  lhsBatch := []
  rhsBatch := []
  wf := dot_S128x64_S4096x64_S128x4096_1_1_0_0_n_n_wf
def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x128x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S1x4096x4096 : Shape := ⟨3, ![1, 4096, 4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S1x4096x4096, .f32⟩
  | .hbm, ⟨4, _⟩ => ⟨S8x4096x4096, .f32⟩
  | .hbm, ⟨5, _⟩ => ⟨S_, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S_, .f32⟩
  | .hbm, ⟨10, _⟩ => ⟨S1x4096x4096, .f32⟩
  | .hbm, ⟨11, _⟩ => ⟨S1x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096, .f32⟩
  | .hbm, ⟨16, _⟩ => ⟨S_, .f32⟩
  | .hbm, ⟨17, _⟩ => ⟨S8x4096, .f32⟩
  | .hbm, ⟨18, _⟩ => ⟨S8x4096, .f32⟩
  | .hbm, ⟨19, _⟩ => ⟨S8x4096x1, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  bcast_S_S1x4096x4096 : S_.BroadcastsInDim S1x4096x4096 (![] : Fin 0 → Fin S1x4096x4096.rank)
  bcast_S1x4096x4096_S8x4096x4096_0_1_2 : S1x4096x4096.BroadcastsInDim S8x4096x4096 (![0, 1, 2] : Fin 3 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.KernelPieces.lean ====
/-
  What one grid point's body leaves in its two output blocks, as pure functions of the blocks it was given.
  At grid point `i = (query tile, batch)` the body reads the query tile `x0`, the mask tile `x3`, and of the
  two resident arrays (all keys, all values) only the batch's own slab: the rows `[i 1, :, :]`. Each output
  block is written by one store covering the whole block, so what the block holds afterwards is that store's
  payload: the attention weights of the tile (second output), and their product with the value slab (first
  output). The loads of the output blocks that precede the stores are not used by either payload.
-/
import proofs.«409052_j44830868636191_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem zeros3 : (![0, 0, 0] : Fin 3 → Nat) = fun _ => 0 := funext fun a => by fin_cases a <;> rfl

/-- The batch's slab of a resident `[8, 4096, 64]` array at grid point `i`: its rows `[i 1, :, :]`. -/
abbrev slab (i : grid0.Coords) (x : Vec F S8x4096x64 .bf16) : Vec F S1x4096x64 .bf16 :=
  View.ld x (Rect.unit (s := S8x4096x64) (k0_off1 i) S1x4096x64.size (k0_off1_inb i))

/-- The weights block after the body: the weights payload of the query tile, the key slab and the mask tile. -/
theorem weights_block (c : Dev nD) (i : grid0.Coords) (arg2 : Memref sig .tc .vmem S1x128x64 .f32) (harg2 : arg2.IsWhole) (arg3 : Memref sig .tc .vmem S8x4096x64 .bf16) (harg3 : arg3.IsWhole) (arg4 : Memref sig .tc .vmem S8x4096x64 .bf16) (harg4 : arg4.IsWhole) (arg5 : Memref sig .tc .vmem S1x128x4096 .f32) (harg5 : arg5.IsWhole) (arg6 : Memref sig .tc .vmem S1x128x64 .f32) (harg6 : arg6.IsWhole) (arg7 : Memref sig .tc .vmem S1x128x4096 .f32) (harg7 : arg7.IsWhole)
    (x0 : Vec F S1x128x64 .f32) (x1 : Vec F S8x4096x64 .bf16) (x2 : Vec F S8x4096x64 .bf16) (x3 : Vec F S1x128x4096 .f32) :
    out0_A_5 c i arg2 harg2 arg3 harg3 arg4 harg4 arg5 harg5 arg6 harg6 arg7 harg7 x0 x1 x2 x3 = k0_pay3 x0 (slab i x1) x3 := by
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  sl_unfold_words
  rw [View.canon_unit_zero zeros3]
  simp only [View.readAt_eq_ld, harg2.read_unread, harg3.read_unread, harg5.read_unread,
    View.ld_unit_zero (S := S1x128x64) zeros3, View.ld_unit_zero (S := S1x128x4096) zeros3]
  rfl

/-- The output block after the body: the product payload of the same blocks and the value slab. -/
theorem output_block (c : Dev nD) (i : grid0.Coords) (arg2 : Memref sig .tc .vmem S1x128x64 .f32) (harg2 : arg2.IsWhole) (arg3 : Memref sig .tc .vmem S8x4096x64 .bf16) (harg3 : arg3.IsWhole) (arg4 : Memref sig .tc .vmem S8x4096x64 .bf16) (harg4 : arg4.IsWhole) (arg5 : Memref sig .tc .vmem S1x128x4096 .f32) (harg5 : arg5.IsWhole) (arg6 : Memref sig .tc .vmem S1x128x64 .f32) (harg6 : arg6.IsWhole) (arg7 : Memref sig .tc .vmem S1x128x4096 .f32) (harg7 : arg7.IsWhole)
    (x0 : Vec F S1x128x64 .f32) (x1 : Vec F S8x4096x64 .bf16) (x2 : Vec F S8x4096x64 .bf16) (x3 : Vec F S1x128x4096 .f32) :
    out0_A_4 c i arg2 harg2 arg3 harg3 arg4 harg4 arg5 harg5 arg6 harg6 arg7 harg7 x0 x1 x2 x3 = k0_pay1 (k0_pay4 x0 (slab i x1) (slab i x2) x3) := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  sl_unfold_words
  rw [View.canon_unit_zero zeros3]
  simp only [View.readAt_eq_ld, harg2.read_unread, harg3.read_unread, harg4.read_unread, harg5.read_unread,
    View.ld_unit_zero (S := S1x128x64) zeros3, View.ld_unit_zero (S := S1x128x4096) zeros3]
  rfl

end Cert.KernelIdeal.Pieces

end
-- ==== Proof.KernelBlocks.lean ====
/-
  What the body is given at a grid point, as entries of the argument arrays.
  Grid point `t` has coordinates (query tile `g`, batch `b`). Its query tile is rows `128·g … 128·g + 127`
  of batch `b` of the queries; its mask tile is the same rows of the one mask; the resident key and value arrays
  are the whole arrays as the region finds them (the arguments with their float format changed, which is the
  identity on extended reals), of which the body takes batch `b`'s slab. Both output blocks sit at rows
  `128·g …` of batch `b`.
-/
import proofs.«409052_j44830868636191_3_alg».proof.Proof.KernelPieces
import Idealize.ShloMosaic.Lib.ValueIdx
import Idealize.ShloMosaic.Lib.StableHlo.Run

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-- The query tile of grid point `t`. -/
abbrev tile (t : Fin cfg0.N) : Fin 32 := grid0.coords t 0
/-- The batch of grid point `t`. -/
abbrev batch (t : Fin cfg0.N) : Fin 8 := grid0.coords t 1

/-- Row `p` of tile `g` is row `128·g + p` of the array. -/
def row (g : Fin 32) (p : Fin 128) : Fin 4096 := ⟨g.val * 128 + p.val, by have := g.isLt; have := p.isLt; omega⟩

/-- The index maps in closed form. -/
theorem transform0_eq (i : grid0.Coords) : cc0_transform_0 i = ![(i 1).val, (i 0).val, 0] := by
  have r0 : (i 0).val < 32 := (i 0).isLt
  have r1 : (i 1).val < 8 := (i 1).isLt
  have h0 : Affine.IsInt (BitVec.ofNat 32 (i 0).val) ((i 0).val : Int) := Affine.ofNat _ (by omega)
  have h1 : Affine.IsInt (BitVec.ofNat 32 (i 1).val) ((i 1).val : Int) := Affine.ofNat _ (by omega)
  exact Affine.vec_cons h1 (by omega) <| Affine.vec_cons h0 (by omega) <| Affine.vec_cons (Affine.ofNat 0 (by omega) : Affine.IsInt 0#32 0) (by omega) <| Affine.vec_nil

theorem transform3_eq (i : grid0.Coords) : cc0_transform_3 i = ![0, (i 0).val, 0] := by
  have r0 : (i 0).val < 32 := (i 0).isLt
  have h0 : Affine.IsInt (BitVec.ofNat 32 (i 0).val) ((i 0).val : Int) := Affine.ofNat _ (by omega)
  exact Affine.vec_cons (Affine.ofNat 0 (by omega) : Affine.IsInt 0#32 0) (by omega) <| Affine.vec_cons h0 (by omega) <| Affine.vec_cons (Affine.ofNat 0 (by omega) : Affine.IsInt 0#32 0) (by omega) <| Affine.vec_nil

theorem transform4_eq (i : grid0.Coords) : cc0_transform_4 i = ![(i 1).val, (i 0).val, 0] := transform0_eq i
theorem transform5_eq (i : grid0.Coords) : cc0_transform_5 i = ![(i 1).val, (i 0).val, 0] := transform0_eq i

/-- The query tile's entry `(0, p, d)` is the queries' entry `(b, 128·g + p, d)`. -/
theorem query_tile (c : Dev nD) (t : Fin cfg0.N) (p : Fin 128) (d : Fin 64) :
    (iblk m c 0 t : Vec Ideal S1x128x64 .f32) (ix3 0 p d)
      = (m ((c : Thread nD τ).loc main_arg0) : S8x4096x64.Idx → EReal) (ix3 (batch t) (row (tile t) p) d) := by
  unfold iblk
  rw [View.read_apply]
  show V m c main_arg0 _ = _
  rw [V_main_arg0]
  congr 1
  funext a
  apply Fin.ext
  have e := transform0_eq (grid0.coords t)
  match a with
  | ⟨0, _⟩ => show cc0_transform_0 (grid0.coords t) 0 * 1 + 1 * 0 = (grid0.coords t 1).val; rw [e]; show (grid0.coords t 1).val * 1 + 1 * 0 = _; omega
  | ⟨1, _⟩ => show cc0_transform_0 (grid0.coords t) 1 * 128 + 1 * p.val = (grid0.coords t 0).val * 128 + p.val; rw [e]; show (grid0.coords t 0).val * 128 + 1 * p.val = _; omega
  | ⟨2, _⟩ => show cc0_transform_0 (grid0.coords t) 2 * 64 + 1 * d.val = d.val; rw [e]; show 0 * 64 + 1 * d.val = _; omega

/-- The mask tile's entry `(0, p, k)` is the mask's entry `(0, 128·g + p, k)`. -/
theorem mask_tile (c : Dev nD) (t : Fin cfg0.N) (p : Fin 128) (k : Fin 4096) :
    (iblk m c 3 t : Vec Ideal S1x128x4096 .f32) (ix3 0 p k)
      = (m ((c : Thread nD τ).loc main_arg3) : S1x4096x4096.Idx → EReal) (ix3 0 (row (tile t) p) k) := by
  unfold iblk
  rw [View.read_apply]
  show V m c main_arg3 _ = _
  rw [V_main_arg3]
  congr 1
  funext a
  apply Fin.ext
  have e := transform3_eq (grid0.coords t)
  match a with
  | ⟨0, _⟩ => show cc0_transform_3 (grid0.coords t) 0 * 1 + 1 * 0 = 0; rw [e]; rfl
  | ⟨1, _⟩ => show cc0_transform_3 (grid0.coords t) 1 * 128 + 1 * p.val = (grid0.coords t 0).val * 128 + p.val; rw [e]; show (grid0.coords t 0).val * 128 + 1 * p.val = _; omega
  | ⟨2, _⟩ => show cc0_transform_3 (grid0.coords t) 2 * 4096 + 1 * k.val = k.val; rw [e]; show 0 * 4096 + 1 * k.val = _; omega

/-- The keys as the region finds them are the keys: only their float format was changed. -/
theorem keys_entry (c : Dev nD) : (V m c main_v0 : S8x4096x64.Idx → EReal) = m ((c : Thread nD τ).loc main_arg1) := by
  dsimp only [Gen.V, Gen.hostOps0]
  after_results
  rfl

/-- The values as the region finds them are the values. -/
theorem values_entry (c : Dev nD) : (V m c main_v1 : S8x4096x64.Idx → EReal) = m ((c : Thread nD τ).loc main_arg2) := by
  dsimp only [Gen.V, Gen.hostOps0]
  after_results
  rfl

/-- The key slab's entry `(0, k, d)` is the keys' entry `(b, k, d)`. -/
theorem key_slab (c : Dev nD) (t : Fin cfg0.N) (k : Fin 4096) (d : Fin 64) :
    Pieces.slab (grid0.coords t) (iblk m c 1 t : Vec Ideal S8x4096x64 .bf16) (ix3 0 k d)
      = (m ((c : Thread nD τ).loc main_arg1) : S8x4096x64.Idx → EReal) (ix3 (batch t) k d) := by
  unfold iblk
  show (((cfg0.win 1).blk t).view.read (Elt Ideal) (V m c main_v0)) _ = _
  rw [View.read_apply, keys_entry]
  refine congrArg (m ((c : Thread nD τ).loc main_arg1)) (funext fun a => Fin.ext ?_)
  have e := k0_off1_eq (grid0.coords t)
  match a with
  | ⟨0, _⟩ => show cc0_transform_1 (grid0.coords t) 0 * 8 + 1 * (k0_off1 (grid0.coords t) 0 + 1 * 0) = (grid0.coords t 1).val; rw [e]; show 0 * 8 + 1 * ((grid0.coords t 1).val + 1 * 0) = _; omega
  | ⟨1, _⟩ => show cc0_transform_1 (grid0.coords t) 1 * 4096 + 1 * (k0_off1 (grid0.coords t) 1 + 1 * k.val) = k.val; rw [e]; show 0 * 4096 + 1 * (0 + 1 * k.val) = _; omega
  | ⟨2, _⟩ => show cc0_transform_1 (grid0.coords t) 2 * 64 + 1 * (k0_off1 (grid0.coords t) 2 + 1 * d.val) = d.val; rw [e]; show 0 * 64 + 1 * (0 + 1 * d.val) = _; omega

/-- The value slab's entry `(0, k, v)` is the values' entry `(b, k, v)`. -/
theorem value_slab (c : Dev nD) (t : Fin cfg0.N) (k : Fin 4096) (v : Fin 64) :
    Pieces.slab (grid0.coords t) (iblk m c 2 t : Vec Ideal S8x4096x64 .bf16) (ix3 0 k v)
      = (m ((c : Thread nD τ).loc main_arg2) : S8x4096x64.Idx → EReal) (ix3 (batch t) k v) := by
  unfold iblk
  show (((cfg0.win 2).blk t).view.read (Elt Ideal) (V m c main_v1)) _ = _
  rw [View.read_apply, values_entry]
  refine congrArg (m ((c : Thread nD τ).loc main_arg2)) (funext fun a => Fin.ext ?_)
  have e := k0_off1_eq (grid0.coords t)
  match a with
  | ⟨0, _⟩ => show cc0_transform_2 (grid0.coords t) 0 * 8 + 1 * (k0_off1 (grid0.coords t) 0 + 1 * 0) = (grid0.coords t 1).val; rw [e]; show 0 * 8 + 1 * ((grid0.coords t 1).val + 1 * 0) = _; omega
  | ⟨1, _⟩ => show cc0_transform_2 (grid0.coords t) 1 * 4096 + 1 * (k0_off1 (grid0.coords t) 1 + 1 * k.val) = k.val; rw [e]; show 0 * 4096 + 1 * (0 + 1 * k.val) = _; omega
  | ⟨2, _⟩ => show cc0_transform_2 (grid0.coords t) 2 * 64 + 1 * (k0_off1 (grid0.coords t) 2 + 1 * v.val) = v.val; rw [e]; show 0 * 64 + 1 * (0 + 1 * v.val) = _; omega

end Cert.KernelIdeal.Blocks

end
-- ==== Proof.LibSoftmaxRow.lean ====
/-
  One row of a softmax over the extended reals, in the two normalisations the programs use.
  For a row `L` of scores: its maximum `rowMax L` (a fold of `max` from the bottom element), the
  numerators `num L k = exp (L k - rowMax L)`, their sum `den L`. One program multiplies each numerator by
  the reciprocal `1 / den L`, the other divides by `den L`. The two agree as soon as `den L ≠ 0`, and for
  a nonempty row of REAL scores the denominator is at least one: the maximum is attained at some `k`,
  where the numerator is `exp 0 = 1`, and every numerator is nonnegative.
-/
import Idealize.ShloMosaic.PureOps.Ideal
import Mathlib.Algebra.Order.BigOperators.Group.Finset
import Mathlib.Data.Finset.Fold

noncomputable section

namespace Cert.Softmax

open Idealize.ShloMosaic

variable {n : ℕ}

/-- The row's maximum: the fold of `max` over the row from the bottom element. -/
def rowMax (L : Fin n → EReal) : EReal := (Finset.univ : Finset (Fin n)).fold max ⊥ L

/-- The numerator at `k`: the exponential of the score less the row's maximum. -/
def num (L : Fin n → EReal) (k : Fin n) : EReal := Ideal.exp (L k - rowMax L)

/-- The denominator: the sum of the row's numerators. -/
def den (L : Fin n → EReal) : EReal := ∑ j : Fin n, num L j

/-- The weight at `k`, normalised by multiplying with the reciprocal of the denominator. -/
def weight (L : Fin n → EReal) (k : Fin n) : EReal := num L k * Ideal.div 1 (den L)

theorem exp_nonneg (x : EReal) : 0 ≤ Ideal.exp x := by
  induction x using EReal.rec with
  | bot => exact le_rfl
  | top => exact le_top
  | coe r => rw [Ideal.exp_coe]; exact_mod_cast (Real.exp_pos r).le

/-- The maximum of a nonempty row is one of its entries. -/
theorem rowMax_attained (hn : 0 < n) (L : Fin n → EReal) : ∃ k, rowMax L = L k := by
  obtain ⟨k, -, hk⟩ := Finset.exists_max_image (Finset.univ : Finset (Fin n)) L ⟨⟨0, hn⟩, Finset.mem_univ _⟩
  refine ⟨k, le_antisymm ?_ ?_⟩
  · exact (Finset.fold_max_le _).mpr ⟨bot_le, fun x hx => hk x hx⟩
  · exact (Finset.le_fold_max _).mpr (Or.inr ⟨k, Finset.mem_univ _, le_rfl⟩)

/-- A nonempty row of real scores has denominator at least one, so not zero. -/
theorem den_ne_zero (hn : 0 < n) (L : Fin n → EReal) (hL : ∀ k, ∃ r : ℝ, L k = (r : EReal)) : den L ≠ 0 := by
  obtain ⟨k, hk⟩ := rowMax_attained hn L
  obtain ⟨r, hr⟩ := hL k
  have h1 : num L k = 1 := by
    unfold num
    rw [hk, hr, ← EReal.coe_sub, sub_self, EReal.coe_zero]
    show Ideal.exp ((0 : ℝ) : EReal) = 1
    rw [Ideal.exp_coe, Real.exp_zero, EReal.coe_one]
  have h2 : num L k ≤ den L :=
    Finset.single_le_sum (f := num L) (fun j _ => exp_nonneg _) (Finset.mem_univ k)
  intro h0
  rw [h1, h0] at h2
  exact absurd h2 (by norm_num)

/-- Dividing by a nonzero denominator is multiplying by its reciprocal. -/
theorem div_eq_mul_recip (x s : EReal) (hs : s ≠ 0) : Ideal.div x s = x * Ideal.div 1 s := by
  unfold Ideal.div
  rw [if_neg hs, if_neg hs, one_mul]

/-- For a nonempty row of real scores the quotient by the denominator is the weight. -/
theorem div_den_eq_weight (hn : 0 < n) (L : Fin n → EReal) (hL : ∀ k, ∃ r : ℝ, L k = (r : EReal)) (k : Fin n) :
    Ideal.div (num L k) (den L) = weight L k :=
  div_eq_mul_recip _ _ (den_ne_zero hn L hL)

end Cert.Softmax

end
-- ==== Proof.Consts.lean ====
/-
  The float words the two programs spell, as the extended reals they denote: the softmax scale 1/8, the
  head dimension 64 whose square root the reference divides by, one, the two infinities, zero, and the
  finite mask penalty (only its finiteness is used: both programs multiply the mask by the same word).
  Stated once here so that no other module opens the bit-pattern reading.
-/
import Idealize.ShloMosaic.PureOps.Ideal

noncomputable section

namespace Cert.Consts

open Idealize.ShloMosaic

/-- `0.125` denotes the real `1/8`. -/
theorem ofBits_eighth : Ideal.ofBits .f32 0x3E000000#32 = ((1 / 8 : ℝ) : EReal) := by
  simp [Ideal.ofBits, Ideal.ieee, -EReal.coe_mul]; norm_num

/-- `64.0` denotes the real `64`. -/
theorem ofBits_64 : Ideal.ofBits .f32 0x42800000#32 = ((64 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- `+0.0` denotes `0`. -/
theorem ofBits_zero : Ideal.ofBits .f32 0x00000000#32 = 0 := by
  simp [Ideal.ofBits, Ideal.ieee]

/-- The pattern of `-inf` denotes the bottom element. -/
theorem ofBits_neg_inf : Ideal.ofBits .f32 0xFF800000#32 = ⊥ := by
  simp [Ideal.ofBits, Ideal.ieee]

/-- The pattern of `+inf` denotes the top element. -/
theorem ofBits_pos_inf : Ideal.ofBits .f32 0x7F800000#32 = ⊤ := by
  simp [Ideal.ofBits, Ideal.ieee]

/-- The mask penalty `-1e9` denotes a real number. -/
theorem ofBits_penalty : Ideal.ofBits .f32 0xCE6E6B28#32 = ((-1000000000 : ℝ) : EReal) := by
  simp [Ideal.ofBits, Ideal.ieee, -EReal.coe_mul]; norm_num

/-- The square root of 64 is 8, so the reference's `x / sqrt(64)` is `x / 8`. -/
theorem sqrt_64 : Ideal.sqrt ((64 : ℝ) : EReal) = ((8 : ℝ) : EReal) := by
  rw [Ideal.sqrt_coe, if_neg (by norm_num)]
  congr 1
  rw [show (64 : ℝ) = 8 * 8 by norm_num]
  exact Real.sqrt_mul_self (by norm_num)

end Cert.Consts

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.LibDotNT.lean ====
/-
  A matrix times a transposed matrix, read at an index.

  For the dimension numbers of an M × K by N × K product that contracts the LAST axis of both operands (no batch
  axis: x · Wᵀ with W stored row by row), the sum over the contraction index that a matmul into a zero accumulator
  or a dot_general denotes at the ideal values is, at row p and column q, the sum over k of l (p, k) · r (q, k).
  General in M, K, N; a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.DotNT

open Idealize.ShloMosaic Idealize.ShloMosaic.ValueIdx

variable {M K N : Nat}

/-- The dimension numbers: contract axis 1 of both operands; the result's axes are the left rows, then the right rows. -/
abbrev dims (w : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], w⟩

variable (w : DotDims.WF (⟨2, ![M, K]⟩ : Shape) ⟨2, ![N, K]⟩ ⟨2, ![M, N]⟩ [1] [1] [0] [0] [] [])

theorem contr_rank : (dims w).contr.rank = 1 := rfl
theorem contr_size : (dims w).contr.size ⟨0, by rw [contr_rank]; exact Nat.one_pos⟩ = K := rfl

/-- The contraction index is its one coordinate, a column of either operand. -/
abbrev kEquiv : (dims w).contr.Idx ≃ Fin K := contrEquiv1 (dims w) K (contr_rank w) (contr_size w)

/-- The left operand is read at (row of the result, k). -/
theorem lhsIdx_eq (j : (⟨2, ![M, N]⟩ : Shape).Idx) (k : Fin K) :
    (dims w).lhsIdx j ((kEquiv w).symm k) = ix2 (j 0) k := by
  funext a
  apply Fin.ext
  match a with
  | ⟨0, _⟩ => rfl
  | ⟨1, _⟩ =>
    exact ((dims w).lhsIdx_val_of_single (cl := 1) rfl j _).trans
      (contrEquiv1_symm_val (dims w) K (contr_rank w) (contr_size w) k)

/-- The right operand is read at (column of the result, k): its rows are the result's columns. -/
theorem rhsIdx_eq (j : (⟨2, ![M, N]⟩ : Shape).Idx) (k : Fin K) :
    (dims w).rhsIdx j ((kEquiv w).symm k) = ix2 (j 1) k := by
  funext a
  apply Fin.ext
  match a with
  | ⟨0, _⟩ => rfl
  | ⟨1, _⟩ =>
    exact ((dims w).rhsIdx_val_of_single (cr := 1) rfl j _).trans
      (contrEquiv1_symm_val (dims w) K (contr_rank w) (contr_size w) k)

/-- The contraction sum, over the shared column index. -/
theorem sum_eq (l : (⟨2, ![M, K]⟩ : Shape).Idx → EReal) (r : (⟨2, ![N, K]⟩ : Shape).Idx → EReal) (j : (⟨2, ![M, N]⟩ : Shape).Idx) :
    (∑ kk : (dims w).contr.Idx, l ((dims w).lhsIdx j kk) * r ((dims w).rhsIdx j kk))
      = ∑ k : Fin K, l (ix2 (j 0) k) * r (ix2 (j 1) k) := by
  rw [← Equiv.sum_comp (kEquiv w).symm]
  exact Finset.sum_congr rfl fun k _ =>
    congrArg₂ (· * ·) (congrArg l (lhsIdx_eq w j k)) (congrArg r (rhsIdx_eq w j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![N, K]⟩ φ₂)
    (p : Fin M) (q : Fin N) :
    matmul (dims w) prec l r (constant ⟨2, ![M, N]⟩ .f32 0x00000000#32) (ix2 p q)
      = ∑ k : Fin K, l (ix2 p k) * r (ix2 q k) :=
  (Ideal.matmul_constant_zero_apply (dims w) prec l r (ix2 p q)).trans (sum_eq w l r (ix2 p q))

/-- The host's dot_general, at (p, q). -/
theorem dotGeneral_apply (prec : Option ContractPrecision) (l : FVec Ideal ⟨2, ![M, K]⟩ φ₁) (r : FVec Ideal ⟨2, ![N, K]⟩ φ₂)
    (p : Fin M) (q : Fin N) :
    Host.dotGeneral (dims w) prec l r (ix2 p q) = ∑ k : Fin K, l (ix2 p k) * r (ix2 q k) :=
  (Ideal.dotGeneral_apply (dims w) prec _ l r (ix2 p q)).trans (sum_eq w l r (ix2 p q))

end Idealize.ShloMosaic.DotNT

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.KernelPayload.lean ====
/-
  The body's two payloads read at an index, at the ideal values.
  Of a query tile `v0` (128 rows), the batch's key slab `v4` and value slab `v7` (4096 rows each) and the
  mask tile `v12`, the body computes, for tile row `p`: the scores against every key row
      (∑ d, v0[p,d] · v4[k,d]) · (1/8) + v12[p,k] · (-1e9)
  (a product with the transposed key slab, then the scale and the mask penalty), the row's maximum, the
  exponentials of the scores less the maximum, their sum, its reciprocal, and the weights: the softmax of the
  row in the multiply-by-reciprocal form. The second payload is the weights times the value slab. The changes of
  float format on the way are the identity on extended reals.
-/
import proofs.«409052_j44830868636191_3_alg».proof.Proof.Gen.KernelIdeal.Skeleton
import proofs.«409052_j44830868636191_3_alg».proof.Proof.LibSoftmaxRow
import proofs.«409052_j44830868636191_3_alg».proof.Proof.Consts
import proofs.«409052_j44830868636191_3_alg».proof.Proof.LibColumns
import proofs.«409052_j44830868636191_3_alg».proof.Proof.LibDotNT
import proofs.«409052_j44830868636191_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

variable (v0 : Vec Ideal S1x128x64 .f32) (v4 v7 : Vec Ideal S1x4096x64 .bf16) (v12 : Vec Ideal S1x128x4096 .f32)

/-- The scores of tile row `p` against every key row of the slab. -/
def tileScores (p : Fin 128) : Fin 4096 → EReal := fun k =>
  (∑ d : Fin 64, v0 (ix3 0 p d) * v4 (ix3 0 k d)) * Ideal.ofBits .f32 0x3E000000#32
    + v12 (ix3 0 p k) * Ideal.ofBits .f32 0xCE6E6B28#32

/-- The tile's product with the transposed key slab. -/
def qk : FVec Ideal S128x4096 .f32 :=
  matmul dot_S128x64_S4096x64_S128x4096_1_1_0_0_n_n none
    (truncf .bf16 (shapeCast S128x64 v0 shapeCasts_S1x128x64_S128x64 : FVec Ideal S128x64 .f32) bitsLt_bf16_f32)
    (shapeCast S4096x64 v4 shapeCasts_S1x4096x64_S4096x64 : FVec Ideal S4096x64 .bf16) (constant S128x4096 .f32 0x00000000#32)

/-- The scaled product plus the mask penalty. -/
def sc : FVec Ideal S128x4096 .f32 :=
  addf (mulf (qk v0 v4) (broadcast S128x4096 (Scalar.ofBits .f32 0x3E000000#32)))
    (mulf (shapeCast S128x4096 v12 shapeCasts_S1x128x4096_S128x4096 : FVec Ideal S128x4096 .f32) (broadcast S128x4096 (Scalar.ofBits .f32 0xCE6E6B28#32)))

/-- The rows' maxima. -/
def mx : FVec Ideal S128 .f32 :=
  multiReduction .maximumf [1] S128 (sc v0 v4 v12) 0xFF800000#32 reduces_S128x4096_S128 (.inl rfl) rfl

/-- The exponentials of the scores less their row's maximum. -/
def ex : FVec Ideal S128x4096 .f32 :=
  exp (subf (sc v0 v4 v12) (broadcastTo S128x4096 (shapeCast S128x1 (mx v0 v4 v12) shapeCasts_S128_S128x1) broadcasts_S128x1_S128x4096))

/-- The rows' sums of exponentials. -/
def sm : FVec Ideal S128 .f32 :=
  multiReduction .add [1] S128 (ex v0 v4 v12) 0x00000000#32 reduces_S128x4096_S128 (.inl rfl) rfl

/-- The weights: each exponential times the reciprocal of its row's sum. -/
def wt : FVec Ideal S128x4096 .f32 :=
  mulf (ex v0 v4 v12) (broadcastTo S128x4096 (divf (broadcast S128x1 (Scalar.ofBits .f32 0x3F800000#32))
    (shapeCast S128x1 (sm v0 v4 v12) shapeCasts_S128_S128x1)) broadcasts_S128x1_S128x4096)

set_option maxRecDepth 65536 in
/-- The weights payload is this chain. -/
theorem pay2_eq : k0_pay2 (F := Ideal) v0 v4 v12 = wt v0 v4 v12 := rfl

/-- The reduced axis re-inserted: row `p` at column `k`. -/
theorem lift_eq (p : Fin 128) (k : Fin 4096) : reduces_S128x4096_S128.lift (ix1 p) k = ix2 p k :=
  funext fun a => Fin.ext (by match a with | ⟨0, _⟩ => rfl | ⟨1, _⟩ => rfl)

theorem qk_apply (p : Fin 128) (k : Fin 4096) :
    qk v0 v4 (ix2 p k) = ∑ d : Fin 64, v0 (ix3 0 p d) * v4 (ix3 0 k d) := by
  unfold qk
  refine (DotNT.matmul_zero_apply (M := 128) (K := 64) (N := 4096) dot_S128x64_S4096x64_S128x4096_1_1_0_0_n_n_wf none _ _ p k).trans ?_
  refine Finset.sum_congr rfl fun d _ => ?_
  rw [truncf_apply, shapeCast_1ab_ab_apply, shapeCast_1ab_ab_apply]

theorem sc_apply (p : Fin 128) (k : Fin 4096) : sc v0 v4 v12 (ix2 p k) = tileScores v0 v4 v12 p k := by
  unfold sc tileScores
  rw [addf_apply, mulf_apply, mulf_apply, qk_apply, shapeCast_1ab_ab_apply]
  rfl

theorem mx_apply (p : Fin 128) : mx v0 v4 v12 (ix1 p) = Softmax.rowMax (tileScores v0 v4 v12 p) := by
  unfold mx Softmax.rowMax
  refine (Ideal.multiReduction_maximumf_single (sc v0 v4 v12) 0xFF800000#32 reduces_S128x4096_S128 (.inl rfl) rfl (ix1 p)).trans ?_
  show Finset.fold max (Ideal.ofBits .f32 0xFF800000#32) _ _ = _
  rw [Consts.ofBits_neg_inf]
  refine congrArg (fun f => Finset.fold max ⊥ f Finset.univ) (funext fun k => ?_)
  exact (congrArg (sc v0 v4 v12) (lift_eq p k)).trans (sc_apply v0 v4 v12 p k)

theorem ex_apply (p : Fin 128) (k : Fin 4096) : ex v0 v4 v12 (ix2 p k) = Softmax.num (tileScores v0 v4 v12 p) k := by
  unfold Softmax.num
  have h : ex v0 v4 v12 (ix2 p k) = Ideal.exp (sc v0 v4 v12 (ix2 p k)
      - broadcastTo S128x4096 (shapeCast S128x1 (mx v0 v4 v12) shapeCasts_S128_S128x1) broadcasts_S128x1_S128x4096 (ix2 p k)) := rfl
  rw [h, sc_apply, Columns.broadcastTo_a1_ab_apply, Columns.shapeCast_a_a1_apply, mx_apply]

theorem sm_apply (p : Fin 128) : sm v0 v4 v12 (ix1 p) = Softmax.den (tileScores v0 v4 v12 p) := by
  unfold sm Softmax.den
  refine (Ideal.multiReduction_add_single (ex v0 v4 v12) 0x00000000#32 reduces_S128x4096_S128 (.inl rfl) rfl (ix1 p)).trans ?_
  exact Finset.sum_congr rfl fun k _ => (congrArg (ex v0 v4 v12) (lift_eq p k)).trans (ex_apply v0 v4 v12 p k)

theorem wt_apply (p : Fin 128) (k : Fin 4096) : wt v0 v4 v12 (ix2 p k) = Softmax.weight (tileScores v0 v4 v12 p) k := by
  unfold wt Softmax.weight
  rw [mulf_apply, ex_apply, Columns.broadcastTo_a1_ab_apply, divf_apply, Columns.shapeCast_a_a1_apply, sm_apply]
  show _ * Ideal.div (Ideal.ofBits .f32 0x3F800000#32) _ = _
  rw [Consts.ofBits_one]

/-- The weights payload at (0, p, k): the softmax weight of row `p`'s scores at `k`. -/
theorem weights_payload (p : Fin 128) (k : Fin 4096) :
    k0_pay3 (F := Ideal) v0 v4 v12 (ix3 0 p k) = Softmax.weight (tileScores v0 v4 v12 p) k := by
  show shapeCast S1x128x4096 (k0_pay2 (F := Ideal) v0 v4 v12) shapeCasts_S128x4096_S1x128x4096 (ix3 0 p k) = _
  rw [shapeCast_ab_1ab_apply, pay2_eq, wt_apply]

/-- The output payload at (0, p, v): the weights of row `p` combining the value slab's rows. -/
theorem output_payload (p : Fin 128) (v : Fin 64) :
    k0_pay1 (F := Ideal) (k0_pay4 v0 v4 v7 v12) (ix3 0 p v)
      = ∑ k : Fin 4096, Softmax.weight (tileScores v0 v4 v12 p) k * v7 (ix3 0 k v) := by
  show shapeCast S1x128x64 (matmul dot_S128x4096_S4096x64_S128x64_1_0_0_1_n_n none
      (truncf .bf16 (k0_pay2 (F := Ideal) v0 v4 v12) bitsLt_bf16_f32)
      (shapeCast S4096x64 v7 shapeCasts_S1x4096x64_S4096x64 : FVec Ideal S4096x64 .bf16) (constant S128x64 .f32 0x00000000#32))
      shapeCasts_S128x64_S1x128x64 (ix3 0 p v) = _
  rw [shapeCast_ab_1ab_apply]
  refine (PlainDot.matmul_zero_apply 128 4096 64 none _ _ p v).trans ?_
  refine Finset.sum_congr rfl fun k _ => ?_
  rw [truncf_apply, pay2_eq, wt_apply, shapeCast_1ab_ab_apply]

end Cert.KernelIdeal.Payload

end
-- ==== Proof.Attention.lean ====
/-
  Masked scaled dot-product attention as one function of the four argument arrays, over the extended reals.
  For batch `b` and query row `q` the score against key row `k` is
      (∑ d, Q[b,q,d] · K[b,k,d]) · (1/8)  +  mask[0,q,k] · (-1e9),
  the weights of the row are its softmax (LibSoftmaxRow.lean), and the output row is the weights' combination of
  the value rows: ∑ k, weight[b,q,k] · V[b,k,v]. When the arrays hold real numbers, so do the scores.
-/
import proofs.«409052_j44830868636191_3_alg».proof.Proof.LibSoftmaxRow
import proofs.«409052_j44830868636191_3_alg».proof.Proof.Consts
import Idealize.ShloMosaic.Lib.ValueIdx

noncomputable section

namespace Cert.Attention

open Idealize.ShloMosaic Idealize.ShloMosaic.ValueIdx

/-- The shape of the queries, keys, values and of the output. -/
abbrev SQ : Shape := ⟨3, ![8, 4096, 64]⟩
/-- The shape of the mask, shared by all batches. -/
abbrev SM : Shape := ⟨3, ![1, 4096, 4096]⟩
/-- The shape of the attention weights. -/
abbrev SW : Shape := ⟨3, ![8, 4096, 4096]⟩

/-- An array all of whose entries are real numbers. -/
def Real' {S : Shape} (X : S.Idx → EReal) : Prop := ∀ i, ∃ r : ℝ, X i = (r : EReal)

/-- The scores of query row `q` of batch `b` against every key row. -/
def scores (Q K : SQ.Idx → EReal) (Mk : SM.Idx → EReal) (b : Fin 8) (q : Fin 4096) : Fin 4096 → EReal := fun k =>
  (∑ d : Fin 64, Q (ix3 b q d) * K (ix3 b k d)) * Ideal.ofBits .f32 0x3E000000#32
    + Mk (ix3 0 q k) * Ideal.ofBits .f32 0xCE6E6B28#32

/-- The attention weights. -/
def weights (Q K : SQ.Idx → EReal) (Mk : SM.Idx → EReal) : SW.Idx → EReal := fun i =>
  Softmax.weight (scores Q K Mk (i 0) (i 1)) (i 2)

/-- The attention output. -/
def output (Q K V : SQ.Idx → EReal) (Mk : SM.Idx → EReal) : SQ.Idx → EReal := fun i =>
  ∑ k : Fin 4096, weights Q K Mk (ix3 (i 0) (i 1) k) * V (ix3 (i 0) k (i 2))

/-- A finite sum of real numbers, taken in the extended reals, is a real number. -/
theorem sum_real {ι : Type} (s : Finset ι) (f : ι → EReal) (hf : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨x, hx⟩ := hf a
    exact ⟨x + r, by rw [Finset.sum_insert ha, hr, hx, EReal.coe_add]⟩

/-- Real arrays have real scores. -/
theorem scores_real (Q K : SQ.Idx → EReal) (Mk : SM.Idx → EReal) (hQ : Real' Q) (hK : Real' K) (hM : Real' Mk)
    (b : Fin 8) (q k : Fin 4096) : ∃ r : ℝ, scores Q K Mk b q k = (r : EReal) := by
  obtain ⟨s, hs⟩ := sum_real Finset.univ (fun d : Fin 64 => Q (ix3 b q d) * K (ix3 b k d)) (fun d => by
    obtain ⟨x, hx⟩ := hQ (ix3 b q d)
    obtain ⟨y, hy⟩ := hK (ix3 b k d)
    exact ⟨x * y, by rw [hx, hy, EReal.coe_mul]⟩)
  obtain ⟨z, hz⟩ := hM (ix3 0 q k)
  refine ⟨s * (1 / 8) + z * (-1000000000), ?_⟩
  unfold scores
  rw [hs, hz, Consts.ofBits_eighth, Consts.ofBits_penalty, EReal.coe_add, EReal.coe_mul, EReal.coe_mul]

end Cert.Attention

end
-- ==== Proof.KernelValue.lean ====
/-
  The kernel's two result arrays after the run are the attention output and the attention weights of its
  arguments (Attention.lean).
  At grid point `t` = (query tile `g`, batch `b`) the body leaves in the weights block the softmax weights of
  rows `128·g …` of batch `b`, and in the output block their combination of the value rows; each block is
  written back to rows `128·g …` of batch `b` of its array; the 32 × 8 grid points' blocks cover both arrays
  (row `r` of batch `b` lies in the block of tile `r / 128`).
-/
import proofs.«409052_j44830868636191_3_alg».proof.Proof.Gen.KernelIdeal.Value
import proofs.«409052_j44830868636191_3_alg».proof.Proof.KernelBlocks
import proofs.«409052_j44830868636191_3_alg».proof.Proof.KernelPayload
import proofs.«409052_j44830868636191_3_alg».proof.Proof.Attention

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.KernelIdeal.Blocks

variable (m : (ℓ : Loc nD τ sig) → Buf (Elt Ideal) ℓ) (ρ : Dev nD → PrngReg)

/-- The four arguments as launched. -/
abbrev argQ (c : Dev nD) : Attention.SQ.Idx → EReal := m ((c : Thread nD τ).loc main_arg0)
abbrev argK (c : Dev nD) : Attention.SQ.Idx → EReal := m ((c : Thread nD τ).loc main_arg1)
abbrev argV (c : Dev nD) : Attention.SQ.Idx → EReal := m ((c : Thread nD τ).loc main_arg2)
abbrev argM (c : Dev nD) : Attention.SM.Idx → EReal := m ((c : Thread nD τ).loc main_arg3)

/-- The attention weights of the arguments, as contents of the second result. -/
def wts (c : Dev nD) : Buf (Elt Ideal) ((c : Thread nD τ).loc main_v2_1) :=
  Attention.weights (argQ m c) (argK m c) (argM m c)

/-- The attention output of the arguments, as contents of the first result. -/
def outp (c : Dev nD) : Buf (Elt Ideal) ((c : Thread nD τ).loc main_v2_0) :=
  Attention.output (argQ m c) (argK m c) (argV m c) (argM m c)

/-- The scores the body computes for tile row `p` are the scores of row `128·g + p` of batch `b`. -/
theorem tile_scores (c : Dev nD) (t : Fin cfg0.N) (p : Fin 128) :
    Payload.tileScores (iblk m c 0 t) (Pieces.slab (grid0.coords t) (iblk m c 1 t)) (iblk m c 3 t) p
      = Attention.scores (argQ m c) (argK m c) (argM m c) (batch t) (row (tile t) p) := by
  funext k
  unfold Payload.tileScores Attention.scores
  rw [mask_tile]
  refine congrArg (fun s => s * Ideal.ofBits .f32 0x3E000000#32 + _) (Finset.sum_congr rfl fun d _ => ?_)
  rw [query_tile, key_slab]

/-- The weights block's entry `(0, p, k)` is the weights' entry `(b, 128·g + p, k)`. -/
theorem weights_at (c : Dev nD) (t : Fin cfg0.N) (p : Fin 128) (k : Fin 4096) :
    k0_pay3 (F := Ideal) (iblk m c 0 t) (Pieces.slab (grid0.coords t) (iblk m c 1 t)) (iblk m c 3 t) (ix3 0 p k)
      = wts m c (ix3 (batch t) (row (tile t) p) k) := by
  rw [Payload.weights_payload, tile_scores]
  rfl

/-- The output block's entry `(0, p, v)` is the output's entry `(b, 128·g + p, v)`. -/
theorem output_at (c : Dev nD) (t : Fin cfg0.N) (p : Fin 128) (v : Fin 64) :
    k0_pay1 (F := Ideal) (k0_pay4 (iblk m c 0 t) (Pieces.slab (grid0.coords t) (iblk m c 1 t))
        (Pieces.slab (grid0.coords t) (iblk m c 2 t)) (iblk m c 3 t)) (ix3 0 p v)
      = outp m c (ix3 (batch t) (row (tile t) p) v) := by
  rw [Payload.output_payload, tile_scores]
  unfold outp Attention.output
  refine Finset.sum_congr rfl fun k _ => ?_
  rw [value_slab]
  rfl

/-- What point `t` writes back to the weights is the weights read through its block. -/
theorem weights_flushed (c : Dev nD) (t : Fin cfg0.N) :
    (dats m 0 c).flushed 5 t = ((cfg0.win 5).blk t).view.read (Elt Ideal) (wts m c) := by
  rw [Value.flushed5_A, Pieces.weights_block]
  funext y
  have hy : y = ix3 (0 : Fin 1) (y 1) (y 2) := funext fun a => by
    match a with
    | ⟨0, _⟩ => exact Fin.ext (by have h0 : (y 0).val < 1 := (y 0).isLt; show (y 0).val = 0; omega)
    | ⟨1, _⟩ => rfl
    | ⟨2, _⟩ => rfl
  have e := transform5_eq (grid0.coords t)
  have hi : ((cfg0.win 5).blk t).view.emb y = ix3 (batch t) (row (tile t) (y 1)) (y 2) := funext fun a => Fin.ext (by
    match a with
    | ⟨0, _⟩ => show cc0_transform_5 (grid0.coords t) 0 * 1 + 1 * (y 0).val = (grid0.coords t 1).val; rw [e]; show (grid0.coords t 1).val * 1 + 1 * (y 0).val = _; have : (y 0).val < 1 := (y 0).isLt; omega
    | ⟨1, _⟩ => show cc0_transform_5 (grid0.coords t) 1 * 128 + 1 * (y 1).val = (grid0.coords t 0).val * 128 + (y 1).val; rw [e]; show (grid0.coords t 0).val * 128 + 1 * (y 1).val = _; omega
    | ⟨2, _⟩ => show cc0_transform_5 (grid0.coords t) 2 * 4096 + 1 * (y 2).val = (y 2).val; rw [e]; show 0 * 4096 + 1 * (y 2).val = _; omega)
  show k0_pay3 (F := Ideal) (iblk m c 0 t) (Pieces.slab (grid0.coords t) (iblk m c 1 t)) (iblk m c 3 t) y
    = wts m c (((cfg0.win 5).blk t).view.emb y)
  rw [hi]
  exact (congrArg (k0_pay3 (F := Ideal) (iblk m c 0 t) (Pieces.slab (grid0.coords t) (iblk m c 1 t)) (iblk m c 3 t)) hy).trans
    (weights_at m c t (y 1) (y 2))

/-- What point `t` writes back to the output is the output read through its block. -/
theorem output_flushed (c : Dev nD) (t : Fin cfg0.N) :
    (dats m 0 c).flushed 4 t = ((cfg0.win 4).blk t).view.read (Elt Ideal) (outp m c) := by
  rw [Value.flushed4_A, Pieces.output_block]
  funext y
  have hy : y = ix3 (0 : Fin 1) (y 1) (y 2) := funext fun a => by
    match a with
    | ⟨0, _⟩ => exact Fin.ext (by have h0 : (y 0).val < 1 := (y 0).isLt; show (y 0).val = 0; omega)
    | ⟨1, _⟩ => rfl
    | ⟨2, _⟩ => rfl
  have e := transform4_eq (grid0.coords t)
  have hi : ((cfg0.win 4).blk t).view.emb y = ix3 (batch t) (row (tile t) (y 1)) (y 2) := funext fun a => Fin.ext (by
    match a with
    | ⟨0, _⟩ => show cc0_transform_4 (grid0.coords t) 0 * 1 + 1 * (y 0).val = (grid0.coords t 1).val; rw [e]; show (grid0.coords t 1).val * 1 + 1 * (y 0).val = _; have : (y 0).val < 1 := (y 0).isLt; omega
    | ⟨1, _⟩ => show cc0_transform_4 (grid0.coords t) 1 * 128 + 1 * (y 1).val = (grid0.coords t 0).val * 128 + (y 1).val; rw [e]; show (grid0.coords t 0).val * 128 + 1 * (y 1).val = _; omega
    | ⟨2, _⟩ => show cc0_transform_4 (grid0.coords t) 2 * 64 + 1 * (y 2).val = (y 2).val; rw [e]; show 0 * 64 + 1 * (y 2).val = _; omega)
  show k0_pay1 (F := Ideal) (k0_pay4 (iblk m c 0 t) (Pieces.slab (grid0.coords t) (iblk m c 1 t))
      (Pieces.slab (grid0.coords t) (iblk m c 2 t)) (iblk m c 3 t)) y
    = outp m c (((cfg0.win 4).blk t).view.emb y)
  rw [hi]
  exact (congrArg (k0_pay1 (F := Ideal) (k0_pay4 (iblk m c 0 t) (Pieces.slab (grid0.coords t) (iblk m c 1 t))
      (Pieces.slab (grid0.coords t) (iblk m c 2 t)) (iblk m c 3 t))) hy).trans (output_at m c t (y 1) (y 2))

/-- Every (tile, batch) pair is some grid point's coordinates. -/
theorem point_of (g : Fin 32) (b : Fin 8) :
    ∃ t : Fin cfg0.N, (grid0.coords t 0).val = g.val ∧ (grid0.coords t 1).val = b.val := by
  have hg := g.isLt
  have hb := b.isLt
  refine ⟨⟨g.val * 8 + b.val, by rw [show cfg0.N = 256 from N_0]; omega⟩, ?_, ?_⟩
  · show (g.val * 8 + b.val) / grid0.stride 0 % grid0.bound 0 = g.val
    rw [show grid0.stride 0 = 8 from by decide, show grid0.bound 0 = 32 from rfl]; omega
  · show (g.val * 8 + b.val) / grid0.stride 1 % grid0.bound 1 = b.val
    rw [show grid0.stride 1 = 1 from by decide, show grid0.bound 1 = 8 from rfl]; omega

/-- The weights array after the run. -/
theorem weights_final (c : Dev nD) : (dats m 0 c).arrAt 5 cfg0.N = wts m c :=
  (dats m 0 c).arrAt_eq_of_cover 5 (wts m c) (fun t _ => weights_flushed m c t) fun i => by
    have h0 : (i 0).val < 8 := (i 0).isLt
    have h1 : (i 1).val < 4096 := (i 1).isLt
    have h2 : (i 2).val < 4096 := (i 2).isLt
    obtain ⟨t, ht0, ht1⟩ := point_of ⟨(i 1).val / 128, by omega⟩ ⟨(i 0).val, h0⟩
    have e := transform5_eq (grid0.coords t)
    refine ⟨t, flush0_5 t, ?_⟩
    show i ∈ ((View.whole main_v2_1).slice (win0_5.rect t)).set
    rw [View.set_slice_whole, Rect.mem_set_unit]
    intro a
    match a with
    | ⟨0, _⟩ => show cc0_transform_5 (grid0.coords t) 0 * 1 ≤ (i 0).val ∧ (i 0).val < cc0_transform_5 (grid0.coords t) 0 * 1 + 1
                rw [e]; show (grid0.coords t 1).val * 1 ≤ (i 0).val ∧ (i 0).val < (grid0.coords t 1).val * 1 + 1; simp only [] at ht1; omega
    | ⟨1, _⟩ => show cc0_transform_5 (grid0.coords t) 1 * 128 ≤ (i 1).val ∧ (i 1).val < cc0_transform_5 (grid0.coords t) 1 * 128 + 128
                rw [e]; show (grid0.coords t 0).val * 128 ≤ (i 1).val ∧ (i 1).val < (grid0.coords t 0).val * 128 + 128; simp only [] at ht0; omega
    | ⟨2, _⟩ => show cc0_transform_5 (grid0.coords t) 2 * 4096 ≤ (i 2).val ∧ (i 2).val < cc0_transform_5 (grid0.coords t) 2 * 4096 + 4096
                rw [e]; show 0 * 4096 ≤ (i 2).val ∧ (i 2).val < 0 * 4096 + 4096; omega

/-- The output array after the run. -/
theorem output_final (c : Dev nD) : (dats m 0 c).arrAt 4 cfg0.N = outp m c :=
  (dats m 0 c).arrAt_eq_of_cover 4 (outp m c) (fun t _ => output_flushed m c t) fun i => by
    have h0 : (i 0).val < 8 := (i 0).isLt
    have h1 : (i 1).val < 4096 := (i 1).isLt
    have h2 : (i 2).val < 64 := (i 2).isLt
    obtain ⟨t, ht0, ht1⟩ := point_of ⟨(i 1).val / 128, by omega⟩ ⟨(i 0).val, h0⟩
    have e := transform4_eq (grid0.coords t)
    refine ⟨t, flush0_4 t, ?_⟩
    show i ∈ ((View.whole main_v2_0).slice (win0_4.rect t)).set
    rw [View.set_slice_whole, Rect.mem_set_unit]
    intro a
    match a with
    | ⟨0, _⟩ => show cc0_transform_4 (grid0.coords t) 0 * 1 ≤ (i 0).val ∧ (i 0).val < cc0_transform_4 (grid0.coords t) 0 * 1 + 1
                rw [e]; show (grid0.coords t 1).val * 1 ≤ (i 0).val ∧ (i 0).val < (grid0.coords t 1).val * 1 + 1; simp only [] at ht1; omega
    | ⟨1, _⟩ => show cc0_transform_4 (grid0.coords t) 1 * 128 ≤ (i 1).val ∧ (i 1).val < cc0_transform_4 (grid0.coords t) 1 * 128 + 128
                rw [e]; show (grid0.coords t 0).val * 128 ≤ (i 1).val ∧ (i 1).val < (grid0.coords t 0).val * 128 + 128; simp only [] at ht0; omega
    | ⟨2, _⟩ => show cc0_transform_4 (grid0.coords t) 2 * 64 ≤ (i 2).val ∧ (i 2).val < cc0_transform_4 (grid0.coords t) 2 * 64 + 64
                rw [e]; show 0 * 64 ≤ (i 2).val ∧ (i 2).val < 0 * 64 + 64; omega

/-- The run: both results at the attention functions of the arguments, the arguments unchanged. -/
theorem run : θ_run defs (onTc (τ := τ) (main (F := Ideal))) ⟨m, fun _ => 0, ρ⟩ fun r => ∀ c : Dev nD,
      r.2.mem ((c : Thread nD τ).loc main_v2_0) = outp m c
      ∧ r.2.mem ((c : Thread nD τ).loc main_v2_1) = wts m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (output_final m c), (h c).2.1.trans (weights_final m c), (h c).2.2⟩)
    (Value.run_blocks m ρ)

end Cert.KernelIdeal.Whole

end
-- ==== Proof.RefValue.lean ====
/-
  The reference's two results are the attention weights and the attention output of Attention.lean, when the
  arguments hold real numbers.
  Stage by stage at an index: the batched product of queries and keys over the head dimension, divided by the
  square root of 64 (that is, by 8: the same as multiplying by 1/8); plus the mask times the penalty; the row
  maximum (a fold of `max` from `-inf`, then once more `max` with `-inf`, which changes nothing); the
  exponentials; their row sum from zero; the quotient. The quotient by the row sum is the product with its
  reciprocal because the row sum of real scores is not zero (LibSoftmaxRow.lean): this is where the arguments'
  finiteness is used.
-/
import proofs.«409052_j44830868636191_3_alg».proof.Proof.Gen.ReferenceIdeal.Read
import proofs.«409052_j44830868636191_3_alg».proof.Proof.Attention
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Attention
open Cert.ReferenceIdeal.Gen

variable (x0 x1 x2 : SQ.Idx → EReal) (x3 : SM.Idx → EReal)

theorem lidx0 (b : Fin 8) (q k : Fin 4096) (d : Fin 64) : lidx_main_v0 (ix3 b q k) d = ix3 b q d :=
  funext fun a => Fin.ext (by match a with | ⟨0, _⟩ => rfl | ⟨1, _⟩ => rfl | ⟨2, _⟩ => rfl)
theorem ridx0 (b : Fin 8) (q k : Fin 4096) (d : Fin 64) : ridx_main_v0 (ix3 b q k) d = ix3 b k d :=
  funext fun a => Fin.ext (by match a with | ⟨0, _⟩ => rfl | ⟨1, _⟩ => rfl | ⟨2, _⟩ => rfl)
theorem idx6 (b : Fin 8) (q k : Fin 4096) : idx_main_v6 (ix3 b q k) = ix3 0 q k :=
  funext fun a => Fin.ext (by match a with | ⟨0, _⟩ => rfl | ⟨1, _⟩ => rfl | ⟨2, _⟩ => rfl)
theorem idx12 (b : Fin 8) (q k : Fin 4096) : idx_main_v11 (idx_main_v12 (ix3 b q k)) = ix2 b q :=
  funext fun a => Fin.ext (by match a with | ⟨0, _⟩ => rfl | ⟨1, _⟩ => rfl)
theorem idx17 (b : Fin 8) (q k : Fin 4096) : idx_main_v16 (idx_main_v17 (ix3 b q k)) = ix2 b q :=
  funext fun a => Fin.ext (by match a with | ⟨0, _⟩ => rfl | ⟨1, _⟩ => rfl)
theorem idx15 (b : Fin 8) (q k : Fin 4096) : idx_main_v15 (ix2 b q) k = ix3 b q k :=
  funext fun a => Fin.ext (by match a with | ⟨0, _⟩ => rfl | ⟨1, _⟩ => rfl | ⟨2, _⟩ => rfl)
theorem lidx19 (b : Fin 8) (q : Fin 4096) (v : Fin 64) (k : Fin 4096) : lidx_main_v19 (ix3 b q v) k = ix3 b q k :=
  funext fun a => Fin.ext (by match a with | ⟨0, _⟩ => rfl | ⟨1, _⟩ => rfl | ⟨2, _⟩ => rfl)
theorem ridx19 (b : Fin 8) (q : Fin 4096) (v : Fin 64) (k : Fin 4096) : ridx_main_v19 (ix3 b q v) k = ix3 b k v :=
  funext fun a => Fin.ext (by match a with | ⟨0, _⟩ => rfl | ⟨1, _⟩ => rfl | ⟨2, _⟩ => rfl)

/-- The masked, scaled scores. -/
theorem scores_stage (b : Fin 8) (q k : Fin 4096) :
    val_main_v7 (F := Ideal) x0 x1 x3 (ix3 b q k) = scores x0 x1 x3 b q k := by
  rw [val_main_v7_apply, val_main_v3_apply, val_main_v0_apply, val_main_v2_apply, val_main_v1_apply, val_main_cst_apply,
    val_main_v6_apply, val_main_v5_apply, val_main_v4_apply, val_main_cst_0_apply]
  simp only [lidx0, ridx0, idx6, Ideal.addf_def, Ideal.hostDivf_def, Ideal.hostUnary_sqrt_def, Ideal.ofBits_def, Ideal.mulf_def,
    Consts.ofBits_64, Consts.sqrt_64, Ideal.div_coe (by norm_num : (8 : ℝ) ≠ 0)]
  unfold scores
  rw [Consts.ofBits_eighth]

/-- The reduced axis re-inserted: row `(b, q)` at column `k`. -/
theorem lift_eq (h : S8x4096x4096.Reduces [2] S8x4096) (b : Fin 8) (q k : Fin 4096) : h.lift (ix2 b q) k = ix3 b q k :=
  funext fun a => Fin.ext (by match a with | ⟨0, _⟩ => rfl | ⟨1, _⟩ => rfl | ⟨2, _⟩ => rfl)

/-- The row maximum. -/
theorem max_stage (b : Fin 8) (q : Fin 4096) :
    val_main_v10 (F := Ideal) x0 x1 x3 (ix2 b q) = Softmax.rowMax (scores x0 x1 x3 b q) := by
  rw [val_main_v10_apply, val_main_v9_apply, val_main_cst_2_apply]
  show max (Ideal.ofBits .f32 0xFF800000#32) _ = _
  rw [Consts.ofBits_neg_inf, max_eq_right bot_le]
  unfold val_main_v8 Softmax.rowMax
  have h : S8x4096x4096.Reduces [2] S8x4096 := by decide
  refine (Host.reduce_eq_fold_single FloatOps.maximumf _ _ reducesTo_S8x4096x4096_S8x4096_d2 h h_S_ (ix2 b q)).trans ?_
  show Finset.fold max (Ideal.ofBits .f32 0xFF800000#32) _ _ = _
  rw [Consts.ofBits_neg_inf]
  refine congrArg (fun f => Finset.fold max ⊥ f Finset.univ) (funext fun k => ?_)
  exact (congrArg (val_main_v7 (F := Ideal) x0 x1 x3) (lift_eq h b q k)).trans (scores_stage x0 x1 x3 b q k)

/-- The exponentials. -/
theorem num_stage (b : Fin 8) (q k : Fin 4096) :
    val_main_v14 (F := Ideal) x0 x1 x3 (ix3 b q k) = Softmax.num (scores x0 x1 x3 b q) k := by
  rw [val_main_v14_apply, val_main_v13_apply, scores_stage, val_main_v12_apply, val_main_v11_apply, idx12, max_stage]
  rfl

/-- The row sums. -/
theorem den_stage (b : Fin 8) (q : Fin 4096) :
    val_main_v15 (F := Ideal) x0 x1 x3 (ix2 b q) = Softmax.den (scores x0 x1 x3 b q) := by
  rw [val_main_v15_apply, val_main_cst_3_apply]
  show Ideal.ofBits .f32 0x00000000#32 + _ = _
  rw [Consts.ofBits_zero, zero_add]
  unfold Softmax.den
  refine Finset.sum_congr rfl fun k _ => ?_
  rw [idx15, num_stage]

/-- The reference's weights are the attention weights. -/
theorem weights_eq (h0 : Real' x0) (h1 : Real' x1) (h3 : Real' x3) :
    val_main_v18 (F := Ideal) x0 x1 x3 = weights x0 x1 x3 := by
  funext i
  obtain ⟨b, q, k, rfl⟩ : ∃ (b : Fin 8) (q k : Fin 4096), i = ix3 b q k := ⟨i 0, i 1, i 2, eq_ix3 i⟩
  rw [val_main_v18_apply, num_stage, val_main_v17_apply, val_main_v16_apply, idx17, den_stage]
  show Ideal.div _ _ = Softmax.weight (scores x0 x1 x3 b q) k
  exact Softmax.div_den_eq_weight (by norm_num) _ (scores_real x0 x1 x3 h0 h1 h3 b q) k

/-- The reference's output is the attention output. -/
theorem output_eq (h0 : Real' x0) (h1 : Real' x1) (h3 : Real' x3) :
    val_main_v19 (F := Ideal) x0 x1 x2 x3 = output x0 x1 x2 x3 := by
  funext i
  obtain ⟨b, q, v, rfl⟩ : ∃ (b : Fin 8) (q : Fin 4096) (v : Fin 64), i = ix3 b q v := ⟨i 0, i 1, i 2, eq_ix3 i⟩
  rw [val_main_v19_apply, weights_eq x0 x1 x3 h0 h1 h3]
  unfold output
  refine Finset.sum_congr rfl fun k _ => ?_
  rw [lidx19, ridx19]

end Cert.ReferenceIdeal.RefValue

end
-- ==== Proof.Finite.lean ====
/-
  The precondition says every entry of the four arguments is a real number.
  It is a conjunction of four "all entries have absolute value below +inf" tests. At the ideal values an
  extended real whose absolute value `max x (-x)` is strictly below the top element is neither infinity.
-/
import proofs.«409052_j44830868636191_3_alg».proof.Proof.Gen.Pre_finite_inputs
import proofs.«409052_j44830868636191_3_alg».proof.Proof.Consts
import Idealize.ShloMosaic.Lib.ReduceAll
import Idealize.ShloMosaic.Lib.ValueIdx
import Idealize.ShloMosaic.Lib.Affine
import Idealize.ShloMosaic.Lib.Pipeline.Value
import Idealize.ShloMosaic.PureOps.Ideal.Laws

noncomputable section

namespace Cert.Finite

open Idealize.ShloMosaic Idealize.ShloMosaic.ValueIdx Cert.Pre_finite_inputs Cert.Pre_finite_inputs.Gen

instance : Subsingleton S_.Idx := ⟨fun a b => funext fun d => d.elim0⟩

/-- An extended real whose absolute value is below the top element is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One entry's test: `|x| < +inf` answered true. -/
theorem real_of_test (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  apply real_of_abs_lt_top
  rw [Ideal.cmpf_def, Ideal.hostAbsf_def, Ideal.absf_def, Consts.ofBits_pos_inf] at h
  unfold Ideal.cmp at h
  by_contra hn
  simp [hn] at h

/-- The precondition gives real entries in all four arguments. -/
theorem args_real (x0 x1 x2 : FVec Ideal S8x4096x64 .f32) (x3 : FVec Ideal S1x4096x4096 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have h' := congrFun h ix0
  dsimp only [fn, fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨fun i => real_of_test (x0 i) (Host.reduce_andi_all _ _ _ _ ix0 h0 i),
    fun i => real_of_test (x1 i) (Host.reduce_andi_all _ _ _ _ ix0 h1 i),
    fun i => real_of_test (x2 i) (Host.reduce_andi_all _ _ _ _ ix0 h2 i),
    fun i => real_of_test (x3 i) (Host.reduce_andi_all _ _ _ _ ix0 h3 i)⟩

end Cert.Finite

end
-- ==== Proof.lean ====
/-
  Masked scaled dot-product attention: a tiled kernel against the plain formula, equal over the extended reals.

  Both programs take queries, keys, values `[8, 4096, 64]` and a mask `[1, 4096, 4096]` and return the attention
  output `[8, 4096, 64]` and the attention weights `[8, 4096, 4096]`. For batch `b` and query row `q` the
  score against key row `k` is `(∑ d, Q[b,q,d]·K[b,k,d]) / √64 + mask[0,q,k]·(-1e9)`; the weights are the
  row's softmax; the output is `∑ k, weight[b,q,k]·V[b,k,v]`.

  The kernel works on 32 × 8 grid points (a tile of 128 query rows, a batch): it multiplies by `1/8` where the
  reference divides by `√64 = 8` (the same extended real, at the infinities too), and it multiplies each
  exponential by the reciprocal `1 / s` of the row's sum `s` where the reference divides by `s`. These agree
  when `s ≠ 0`, which holds for real scores: the row's maximum is attained, so one exponential is `exp 0 = 1`
  and `s ≥ 1`. The scores are real because the precondition makes every argument entry real; this is the only
  use of the precondition. Changes of float format are the identity on extended reals, and a sum is the same
  sum whatever its order or tiling.

  Modules: Consts (the float words), LibSoftmaxRow (one row, both normalisations), Attention (the two results as
  functions of the arguments), RefValue (the reference computes them), KernelPieces / KernelPayload /
  KernelBlocks / KernelValue (the kernel's blocks are their tiles, and the tiles cover the arrays), Finite (the
  precondition read).
-/
import proofs.«409052_j44830868636191_3_alg».proof.Defs
import proofs.«409052_j44830868636191_3_alg».proof.Proof.Gen.Kernel
import proofs.«409052_j44830868636191_3_alg».proof.Proof.Gen.Kernel.Skeleton
import proofs.«409052_j44830868636191_3_alg».proof.Proof.Gen.Kernel.Launch
import proofs.«409052_j44830868636191_3_alg».proof.Proof.Gen.Kernel.Points
import proofs.«409052_j44830868636191_3_alg».proof.Proof.Gen.Kernel.Frame
import proofs.«409052_j44830868636191_3_alg».proof.Proof.Gen.KernelIdeal
import proofs.«409052_j44830868636191_3_alg».proof.Proof.Gen.KernelIdeal.Skeleton
import proofs.«409052_j44830868636191_3_alg».proof.Proof.Gen.KernelIdeal.Launch
import proofs.«409052_j44830868636191_3_alg».proof.Proof.Gen.KernelIdeal.Points
import proofs.«409052_j44830868636191_3_alg».proof.Proof.Gen.KernelIdeal.Frame
import proofs.«409052_j44830868636191_3_alg».proof.Proof.Gen.ReferenceIdeal
import proofs.«409052_j44830868636191_3_alg».proof.Proof.Gen.Pre_finite_inputs
import proofs.«409052_j44830868636191_3_alg».proof.Proof.Gen.KernelIdeal.Value
import proofs.«409052_j44830868636191_3_alg».proof.Proof.Gen.ReferenceIdeal.Run
import proofs.«409052_j44830868636191_3_alg».proof.Proof.Gen.ReferenceIdeal.Read
import proofs.«409052_j44830868636191_3_alg».proof.Proof.KernelValue
import proofs.«409052_j44830868636191_3_alg».proof.Proof.RefValue
import proofs.«409052_j44830868636191_3_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the attention output and the attention weights of the arguments: the kernel by its
    tiles (KernelValue), the reference stage by stage (RefValue) on arguments the precondition makes real. -/
theorem algebraic : Cert.algebraic_KernelIdeal_ReferenceIdeal := by
  intro m ρ m' ρ' hpre hagree
  refine ⟨fun c => Cert.KernelIdeal.Whole.outp m c, fun c => Cert.KernelIdeal.Whole.wts m c,
    Cert.KernelIdeal.Whole.run m ρ, ?_⟩
  refine (θ_run Cert.ReferenceIdeal.defs _ _).mono (fun _ h c => ?_) (Cert.ReferenceIdeal.Value.run (F := Ideal) m' ρ')
  obtain ⟨hQ, hK, hV, hM⟩ := Cert.Finite.args_real _ _ _ _ (hpre c)
  obtain ⟨a0, a1, a2, a3⟩ := hagree c
  refine ⟨(h c).1.trans ?_, (h c).2.1.trans ?_, (h c).2.2⟩
  · rw [a0, a1, a2, a3]
    exact Cert.ReferenceIdeal.RefValue.output_eq _ _ _ _ hQ hK hM
  · rw [a0, a1, a3]
    exact Cert.ReferenceIdeal.RefValue.weights_eq _ _ _ hQ hK hM

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
